-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S256x512x512 : Shape := ⟨3, ![256, 512, 512]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S256x512x512 : S_.BroadcastsInDim S256x512x512 (![] : Fin 0 → Fin S256x512x512.rank)
  reducesTo_S256x512x512_S_d0_1_2 : S256x512x512.ReducesTo [0, 1, 2] S_

variable [Facts]

def fn {F : FTy → Type} [FloatOps F] (main_arg0 : FVec F S256x512 .f32) (main_arg1 : FVec F S256x512x512 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S256x512x512 .f32 := Host.absf main_arg1
  let main_cst_0 : FVec F S_ .f32 := constant S_ .f32 0x7F800000#32
  let main_v5 : FVec F S256x512x512 .f32 := broadcastInDim S256x512x512 ![] bcast_S_S256x512x512 main_cst_0
  let main_v6 : IVec S256x512x512 1 := cmpf .olt main_v4 main_v5
  let main_c_1 : IVec S_ 1 := constantI S_ 1 1#1
  let main_v7 : IVec S_ 1 := (fun x v => Host.reduce IntOp.andi x v reducesTo_S256x512x512_S_d0_1_2 h_S_) main_v6 main_c_1
  let main_v8 : IVec S_ 1 := andi main_v3 main_v7
  main_v8
-- ==== Kernel.lean ====
abbrev S256x512 : Shape := ⟨2, ![256, 512]⟩
abbrev S256x512x512 : Shape := ⟨3, ![256, 512, 512]⟩
abbrev S_ : Shape := ⟨0, ![]⟩
abbrev S512 : Shape := ⟨1, ![512]⟩
abbrev S1x512 : Shape := ⟨2, ![1, 512]⟩
abbrev S8x512 : Shape := ⟨2, ![8, 512]⟩
abbrev S8x512x512 : Shape := ⟨3, ![8, 512, 512]⟩
abbrev S8 : Shape := ⟨1, ![8]⟩
abbrev S8x1 : Shape := ⟨2, ![8, 1]⟩
abbrev S512x1 : Shape := ⟨2, ![512, 1]⟩
abbrev S1x512x512 : Shape := ⟨3, ![1, 512, 512]⟩
abbrev S512x512 : Shape := ⟨2, ![512, 512]⟩
abbrev S1 : Shape := ⟨1, ![1]⟩
abbrev S1x1 : Shape := ⟨2, ![1, 1]⟩

abbrev nBuf : Space → Nat
  | .hbm => 17
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512x512, .f32⟩
  | .hbm, ⟨2, _⟩ => ⟨S_, .f32⟩
  | .hbm, ⟨3, _⟩ => ⟨S512, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S512, .f32⟩
  | .hbm, ⟨13, _⟩ => ⟨S1x512, .f32⟩
  | .hbm, ⟨14, _⟩ => ⟨S256x512, .f32⟩
  | .hbm, ⟨15, _⟩ => ⟨S256x512, .f32⟩
  | .hbm, ⟨16, _⟩ => ⟨S256x512x512, .f32⟩
  | .local _ .vmem, ⟨0, _⟩ => ⟨S8x512, .f32⟩
  | .local _ .vmem, ⟨1, _⟩ => ⟨S8x512, .f32⟩
  | .local _ .vmem, ⟨2, _⟩ => ⟨S8x512x512, .f32⟩
  | .local _ .vmem, ⟨3, _⟩ => ⟨S8x512x512, .f32⟩
  | .local _ .vmem, ⟨4, _⟩ => ⟨S8x512x512, .f32⟩
  | .local _ .vmem, ⟨5, _⟩ => ⟨S8x512x512, .f32⟩
  | .local _ .vmem, ⟨6, _⟩ => ⟨S8x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v15 : BitVec 32 := Scalar.addi c0_i32 c8_i32
  let c1_i32 : BitVec 32 := 1#32
  ⟨c0_i32, v15, c1_i32⟩
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let v16 : Index := Scalar.indexCast arg5
  let c0_6 : Index := 0#32
  ![v16.toNat, 0]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let v20 : Index := Scalar.indexCast arg5
  let c0_7 : Index := 0#32
  let c0_8 : Index := 0#32
  ![v20.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S256x512_S512_d0 : S256x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  inb_S8x512_S8x512_0_0 : ∀ a, (![0, 0] : Fin 2 → Nat) a + S8x512.size a ≤ S8x512.size a
  h_S8x512 : 0 < S8x512.numel
  reduces_S8x512_S8 : S8x512.Reduces [1] S8
  shapeCasts_S8_S8x1 : S8.ShapeCasts S8x1
  broadcasts_S8x1_S8x512 : S8x1.Broadcasts S8x512
  shapeCasts_S8x512_S8x512 : S8x512.ShapeCasts S8x512
  h_S1x512 : 0 < S1x512.numel
  shapeCasts_S1x512_S512 : S1x512.ShapeCasts S512
  shapeCasts_S512_S512x1 : S512.ShapeCasts S512x1
  h_S1x512x512 : 0 < S1x512x512.numel
  shapeCasts_S1x512x512_S512x512 : S1x512x512.ShapeCasts S512x512
  shapeCasts_S512_S1x512 : S512.ShapeCasts S1x512
  broadcasts_S1x512_S512x512 : S1x512.Broadcasts S512x512
  reduces_S512x512_S512 : S512x512.Reduces [1] S512
  broadcasts_S512x1_S512x512 : S512x1.Broadcasts S512x512
  reduces_S512x512_S512_2 : S512x512.Reduces [0] S512
  reduces_S1x512_S1 : S1x512.Reduces [1] S1
  shapeCasts_S1_S1x1 : S1.ShapeCasts S1x1
  inpos_S1x1_p0_0 : ∀ a, (![0, 0] : Fin 2 → Nat) a < S1x1.size a
  shapeCasts_S512x512_S1x512x512 : S512x512.ShapeCasts S1x512x512
  hrank0 : 0 < grid0.rank
  k0_t1_ok : k0_t1_loop.OK
  k0_off1_inb : ∀ k0_t1 : Fin k0_t1_loop.trips, ∀ a, (k0_off1 k0_t1) a + S1x512.size a ≤ S8x512.size a
  k0_off2_inb : ∀ k0_t1 : Fin k0_t1_loop.trips, ∀ a, (k0_off2 k0_t1) a + S1x512x512.size a ≤ S8x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S256x512.size a
  hwx0_0 : ∀ i : grid0.Coords, EltTy.bits .f32 = 32 ∨ (Rect.block (s := S256x512) S8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x512.size a ≤ S256x512x512.size a
  hwx0_1 : ∀ i : grid0.Coords, EltTy.bits .f32 = 32 ∨ (Rect.block (s := S256x512x512) S8x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x512.size a ≤ S256x512x512.size a
  hwx0_2 : ∀ i : grid0.Coords, EltTy.bits .f32 = 32 ∨ (Rect.block (s := S256x512x512) S8x512x512.size (cc0_transform_2 i) (hinb0_2 i)).WholeWords (EltTy.packing .f32)

variable [Facts₀]

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S8x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x512 : Shape := ⟨2, ![256, 512]⟩
abbrev S256x512x512 : Shape := ⟨3, ![256, 512, 512]⟩
abbrev S_ : Shape := ⟨0, ![]⟩
abbrev S512 : Shape := ⟨1, ![512]⟩
abbrev S1x512 : Shape := ⟨2, ![1, 512]⟩
abbrev S256 : Shape := ⟨1, ![256]⟩
abbrev S256x1 : Shape := ⟨2, ![256, 1]⟩
abbrev S512x512 : Shape := ⟨2, ![512, 512]⟩
abbrev S256x512x1 : Shape := ⟨3, ![256, 512, 1]⟩
abbrev S256x1x512 : Shape := ⟨3, ![256, 1, 512]⟩
abbrev S1x512x512 : Shape := ⟨3, ![1, 512, 512]⟩

abbrev nBuf : Space → Nat
  | .hbm => 48
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512x512, .f32⟩
  | .hbm, ⟨2, _⟩ => ⟨S_, .f32⟩
  | .hbm, ⟨3, _⟩ => ⟨S512, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S512, .f32⟩
  | .hbm, ⟨13, _⟩ => ⟨S1x512, .f32⟩
  | .hbm, ⟨14, _⟩ => ⟨S256x512, .f32⟩
  | .hbm, ⟨15, _⟩ => ⟨S256x512, .f32⟩
  | .hbm, ⟨16, _⟩ => ⟨S_, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S256x1, .f32⟩
  | .hbm, ⟨22, _⟩ => ⟨S256x512, .f32⟩
  | .hbm, ⟨23, _⟩ => ⟨S256x512, .f32⟩
  | .hbm, ⟨24, _⟩ => ⟨S256x512, .f32⟩
  | .hbm, ⟨25, _⟩ => ⟨S_, .f32⟩
  | .hbm, ⟨26, _⟩ => ⟨S256, .f32⟩
  | .hbm, ⟨27, _⟩ => ⟨S256x1, .f32⟩
  | .hbm, ⟨28, _⟩ => ⟨S256x512, .f32⟩
  | .hbm, ⟨29, _⟩ => ⟨S256x512, .f32⟩
  | .hbm, ⟨30, _⟩ => ⟨S512x512, .i32⟩
  | .hbm, ⟨31, _⟩ => ⟨S512x512, .i32⟩
  | .hbm, ⟨32, _⟩ => ⟨S_, .i32⟩
  | .hbm, ⟨33, _⟩ => ⟨S512x512, .i32⟩
  | .hbm, ⟨34, _⟩ => ⟨S512x512, .i32⟩
  | .hbm, ⟨35, _⟩ => ⟨S512x512, .i1⟩
  | .hbm, ⟨36, _⟩ => ⟨S512x512, .f32⟩
  | .hbm, ⟨37, _⟩ => ⟨S256x512x1, .f32⟩
  | .hbm, ⟨38, _⟩ => ⟨S256x1x512, .f32⟩
  | .hbm, ⟨39, _⟩ => ⟨S1x512x512, .f32⟩
  | .hbm, ⟨40, _⟩ => ⟨S256x512x512, .f32⟩
  | .hbm, ⟨41, _⟩ => ⟨S256x512x512, .f32⟩
  | .hbm, ⟨42, _⟩ => ⟨S256x512x512, .f32⟩
  | .hbm, ⟨43, _⟩ => ⟨S256x512x512, .f32⟩
  | .hbm, ⟨44, _⟩ => ⟨S256x512x512, .f32⟩
  | .hbm, ⟨45, _⟩ => ⟨S256x512x512, .f32⟩
  | .hbm, ⟨46, _⟩ => ⟨S256x512x512, .f32⟩
  | .hbm, ⟨47, _⟩ => ⟨S256x512x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]

class Facts₀ : Prop where
  reducesTo_S256x512_S512_d0 : S256x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  reducesTo_S256x512_S256_d1 : S256x512.ReducesTo [1] S256
  bcast_S_S256 : S_.BroadcastsInDim S256 (![] : Fin 0 → Fin S256.rank)
  bcast_S256_S256x1_0 : S256.BroadcastsInDim S256x1 (![0] : Fin 1 → Fin S256x1.rank)
  bcast_S256x1_S256x512_0_1 : S256x1.BroadcastsInDim S256x512 (![0, 1] : Fin 2 → Fin S256x512.rank)
  bcast_S_S512x512 : S_.BroadcastsInDim S512x512 (![] : Fin 0 → Fin S512x512.rank)
  bcast_S256x512_S256x512x1_0_1 : S256x512.BroadcastsInDim S256x512x1 (![0, 1] : Fin 2 → Fin S256x512x1.rank)
  bcast_S256x512_S256x1x512_0_2 : S256x512.BroadcastsInDim S256x1x512 (![0, 2] : Fin 2 → Fin S256x1x512.rank)
  bcast_S512x512_S1x512x512_1_2 : S512x512.BroadcastsInDim S1x512x512 (![1, 2] : Fin 2 → Fin S1x512x512.rank)
  bcast_S1x512x512_S256x512x512_0_1_2 : S1x512x512.BroadcastsInDim S256x512x512 (![0, 1, 2] : Fin 3 → Fin S256x512x512.rank)
  bcast_S256x1x512_S256x512x512_0_1_2 : S256x1x512.BroadcastsInDim S256x512x512 (![0, 1, 2] : Fin 3 → Fin S256x512x512.rank)
  bcast_S256x512x1_S256x512x512_0_1_2 : S256x512x1.BroadcastsInDim S256x512x512 (![0, 1, 2] : Fin 3 → Fin S256x512x512.rank)
  transposes_S256x512x512_S256x512x512_0_2_1 : S256x512x512.Transposes [0, 2, 1] S256x512x512
  dot_S256x512x512_S256x512x512_S256x512x512_2_1_1_2_0_0_wf : DotDims.WF S256x512x512 S256x512x512 S256x512x512 [2] [1] [1] [2] [0] [0]

variable [Facts₀]

def dot_S256x512x512_S256x512x512_S256x512x512_2_1_1_2_0_0 : DotDims S256x512x512 S256x512x512 S256x512x512 where
  lhsContracting := [2]
  rhsContracting := [1]
  lhsNonContracting := [1]
  rhsNonContracting := [2]
  lhsBatch := [0]
  rhsBatch := [0]
  wf := dot_S256x512x512_S256x512x512_S256x512x512_2_1_1_2_0_0_wf

class Facts : Prop extends Facts₀ where

variable [Facts]
-- ==== Proof.BlockPieces.lean ====
/-
  What the kernel body leaves in its output block, as ONE function of the block index.
  The body first writes the row softmax of the whole `8 × 512` tile of `mu` into its scratch buffer, then
  runs eight trips; trip `k` reads row `k` of that scratch and slab `k` of the `8 × 512 × 512` tile of
  `Sigma`, and stores one `1 × 512 × 512` slab of the output at offset `k`. So the entry `(b, i, j)` of the
  block is the per-sample expression of row `b` of the softmax and slab `b` of `Sigma`, at `(i, j)`: every
  piece the run writes is the restriction of that one function to its rectangle, and the eight rectangles
  tile the block.
-/
import proofs.«423870_j36421322670459_3_alg».proof.Proof.Gen.KernelIdeal.Frame
import Idealize.ShloMosaic.Lib.Pipeline.Value
import Idealize.ShloMosaic.Lib.ValueIdx

set_option maxRecDepth 16384

noncomputable section

namespace Cert.KernelIdeal.BlockPieces

open Cert.KernelIdeal Cert.KernelIdeal.Gen Idealize.ShloMosaic Idealize.ShloMosaic.TcCoe Idealize.ShloMosaic.Tactic
open Idealize.ShloMosaic.ValueIdx
open Idealize.SL Idealize.SL.Sem

variable {F : FTy → Type} [FloatOps F]

/-- Row `b` of an eight-row tile, as the one-row vector a trip loads. -/
def rowOf (S : Vec F S8x512 .f32) (b : Fin 8) : Vec F S1x512 .f32 :=
  fun x => S (ix2 b (⟨(x 1).val, (x 1).isLt⟩ : Fin 512))

/-- Slab `b` of an eight-slab tile, as the one-slab vector a trip loads. -/
def slabOf (X : Vec F S8x512x512 .f32) (b : Fin 8) : Vec F S1x512x512 .f32 :=
  fun x => X (ix3 b (⟨(x 1).val, (x 1).isLt⟩ : Fin 512) (⟨(x 2).val, (x 2).isLt⟩ : Fin 512))

/-- The block the body leaves: at `(b, i, j)` the trip's stored value for row `b` of the tile's softmax and slab
    `b` of the `Sigma` tile, read at `(i, j)`. -/
def blockOut (x0 : Vec F S8x512 .f32) (x1 : Vec F S8x512x512 .f32) : Vec F S8x512x512 .f32 :=
  fun y => k0_pay2 (rowOf (k0_pay1 x0) (⟨(y 0).val, (y 0).isLt⟩ : Fin 8)) (slabOf x1 (⟨(y 0).val, (y 0).isLt⟩ : Fin 8))
    (ix3 (0 : Fin 1) (⟨(y 1).val, (y 1).isLt⟩ : Fin 512) (⟨(y 2).val, (y 2).isLt⟩ : Fin 512))

theorem zeros2 : (![0, 0] : Fin 2 → Nat) = fun _ => 0 := by
  funext a; match a with | ⟨0, _⟩ => rfl | ⟨1, _⟩ => rfl

/-- A trip as a row number of the tile. -/
def tripRow (k : Fin k0_t1_loop.trips) : Fin 8 := ⟨k.val, Nat.lt_of_lt_of_le k.isLt k0_t1_abs.2.1⟩

/-- The one piece trip `k` writes: at the trip's offset, the stored value of what it loaded at the trip's offsets. -/
theorem trip_piece (𝒱 : Variants) (c : Dev nD) (bd : Option 𝒱.V) (i : grid0.Coords) (arg1 : Memref sig .tc .vmem S8x512 .f32) (harg1 : arg1.IsWhole) (arg2 : Memref sig .tc .vmem S8x512x512 .f32) (harg2 : arg2.IsWhole) (arg3 : Memref sig .tc .vmem S8x512x512 .f32) (harg3 : arg3.IsWhole) (arg4 : Memref sig .tc .vmem S8x512 .f32) (harg4 : arg4.IsWhole) (X_arg2 : BufTy.Contents (Elt F) arg2.view.ty) (X_arg4 : BufTy.Contents (Elt F) arg4.view.ty) (k : Fin k0_t1_loop.trips) :
    tripL_k0_t1 (F := F) 𝒱 c bd i arg1 harg1 arg2 harg2 arg3 harg3 arg4 harg4 X_arg2 X_arg4 k
      = [⟨Rect.unit (s := S8x512x512) (k0_off2 k) S1x512x512.size (k0_off2_inb k),
          k0_pay2 (View.readAt (Elt F) arg4.view (Rect.unit (s := S8x512) (k0_off1 k) S1x512.size (k0_off1_inb k)).toLoadRect X_arg4)
            (View.readAt (Elt F) arg2.view (Rect.unit (s := S8x512x512) (k0_off2 k) S1x512x512.size (k0_off2_inb k)).toLoadRect X_arg2)⟩] := by
  unfold tripL_k0_t1 trip_k0_t1
  rfl

/-- The run's pieces for the output block: those of the eight trips, the scratch holding the tile's softmax. -/
theorem run_pieces (c : Dev nD) (i : grid0.Coords) (arg1 : Memref sig .tc .vmem S8x512 .f32) (harg1 : arg1.IsWhole) (arg2 : Memref sig .tc .vmem S8x512x512 .f32) (harg2 : arg2.IsWhole) (arg3 : Memref sig .tc .vmem S8x512x512 .f32) (harg3 : arg3.IsWhole) (arg4 : Memref sig .tc .vmem S8x512 .f32) (harg4 : arg4.IsWhole)
    (x0 : Vec F S8x512 .f32) (x1 : Vec F S8x512x512 .f32) (inb : ∀ a, (![0, 0] : Fin 2 → Nat) a + S8x512.size a ≤ S8x512.size a) :
    (kernelRun0_A c i arg1 harg1 arg2 harg2 arg3 harg3 arg4 harg4 x0 x1).1
      = pb_k0_t1 (F := F) Variants.none c none i arg1 harg1 arg2 harg2 arg3 harg3 arg4 harg4 (harg2.unread x1)
          (arg4.view.writes (Elt F) arg4.view.junk [⟨Rect.unit (s := S8x512) ![0, 0] S8x512.size inb, k0_pay1 x0⟩]) k0_t1_loop.trips := by
  unfold kernelRun0_A
  dsimp only
  sl_unfold_words
  rw [View.readAt_eq_ld, harg1.read_unread, View.ld_unit_zero (S := S8x512) zeros2]

/-- Trip `k` reads row `k` of what the whole-tile store left in the scratch. -/
theorem scratch_row (arg4 : Memref sig .tc .vmem S8x512 .f32) (w : Vec F S8x512 .f32)
    (inb : ∀ a, (![0, 0] : Fin 2 → Nat) a + S8x512.size a ≤ S8x512.size a) (k : Fin k0_t1_loop.trips) :
    View.readAt (Elt F) arg4.view (Rect.unit (s := S8x512) (k0_off1 k) S1x512.size (k0_off1_inb k)).toLoadRect
        (arg4.view.writes (Elt F) arg4.view.junk [⟨Rect.unit (s := S8x512) ![0, 0] S8x512.size inb, w⟩])
      = rowOf w (tripRow k) := by
  rw [View.readAt_writes_junk_eq_canon, View.canon_unit_zero (S := S8x512) zeros2]
  funext x
  unfold rowOf
  refine congrArg w (funext fun a => Fin.ext ?_)
  have h0 : (x 0).val < 1 := (x 0).isLt
  match a with
  | ⟨0, _⟩ =>
    have e : (k0_off1 k) 0 = k.val := congrFun (k0_off1_eq k) 0
    show (k0_off1 k) 0 + 1 * (x 0).val = k.val
    omega
  | ⟨1, _⟩ =>
    have e : (k0_off1 k) 1 = 0 := congrFun (k0_off1_eq k) 1
    show (k0_off1 k) 1 + 1 * (x 1).val = (x 1).val
    omega

/-- Trip `k` reads slab `k` of the `Sigma` tile. -/
theorem slab_read (arg2 : Memref sig .tc .vmem S8x512x512 .f32) (harg2 : arg2.IsWhole) (x1 : Vec F S8x512x512 .f32)
    (k : Fin k0_t1_loop.trips) :
    View.readAt (Elt F) arg2.view (Rect.unit (s := S8x512x512) (k0_off2 k) S1x512x512.size (k0_off2_inb k)).toLoadRect (harg2.unread x1)
      = slabOf x1 (tripRow k) := by
  rw [View.readAt_eq_ld, harg2.read_unread]
  funext x
  unfold slabOf
  refine congrArg x1 (funext fun a => Fin.ext ?_)
  have h0 : (x 0).val < 1 := (x 0).isLt
  match a with
  | ⟨0, _⟩ =>
    have e : (k0_off2 k) 0 = k.val := congrFun (k0_off2_eq k) 0
    show (k0_off2 k) 0 + 1 * (x 0).val = k.val
    omega
  | ⟨1, _⟩ =>
    have e : (k0_off2 k) 1 = 0 := congrFun (k0_off2_eq k) 1
    show (k0_off2 k) 1 + 1 * (x 1).val = (x 1).val
    omega
  | ⟨2, _⟩ =>
    have e : (k0_off2 k) 2 = 0 := congrFun (k0_off2_eq k) 2
    show (k0_off2 k) 2 + 1 * (x 2).val = (x 2).val
    omega

/-- Every piece of the trips before `n` is the restriction of `blockOut` to its rectangle. -/
theorem pieces_restrict (c : Dev nD) (i : grid0.Coords) (arg1 : Memref sig .tc .vmem S8x512 .f32) (harg1 : arg1.IsWhole) (arg2 : Memref sig .tc .vmem S8x512x512 .f32) (harg2 : arg2.IsWhole) (arg3 : Memref sig .tc .vmem S8x512x512 .f32) (harg3 : arg3.IsWhole) (arg4 : Memref sig .tc .vmem S8x512 .f32) (harg4 : arg4.IsWhole)
    (x0 : Vec F S8x512 .f32) (x1 : Vec F S8x512x512 .f32) (inb : ∀ a, (![0, 0] : Fin 2 → Nat) a + S8x512.size a ≤ S8x512.size a) :
    ∀ n, n ≤ k0_t1_loop.trips →
      ∀ p ∈ pb_k0_t1 (F := F) Variants.none c none i arg1 harg1 arg2 harg2 arg3 harg3 arg4 harg4 (harg2.unread x1)
          (arg4.view.writes (Elt F) arg4.view.junk [⟨Rect.unit (s := S8x512) ![0, 0] S8x512.size inb, k0_pay1 x0⟩]) n,
        ∀ x : p.1.shape.Idx, p.2 x = blockOut x0 x1 (p.1.emb x)
  | 0, _, p, hp, _ => by
    rw [pb_k0_t1.eq_1] at hp; exact absurd hp List.not_mem_nil
  | n + 1, hn, p, hp, x => by
    have hlt : n < k0_t1_loop.trips := hn
    rw [show n + 1 = (⟨n, hlt⟩ : Fin k0_t1_loop.trips).val + 1 from rfl, pb_k0_t1_succ, trip_piece] at hp
    rcases List.mem_append.mp hp with h | h
    · obtain rfl := List.mem_singleton.mp h
      show k0_pay2 _ _ x = _
      rw [scratch_row, slab_read]
      unfold blockOut
      have h0 : (x 0).val < 1 := (x 0).isLt
      have e0 : (⟨(((Rect.unit (s := S8x512x512) (k0_off2 ⟨n, hlt⟩) S1x512x512.size (k0_off2_inb ⟨n, hlt⟩)).emb x) 0).val,
          (((Rect.unit (s := S8x512x512) (k0_off2 ⟨n, hlt⟩) S1x512x512.size (k0_off2_inb ⟨n, hlt⟩)).emb x) 0).isLt⟩ : Fin 8) = tripRow ⟨n, hlt⟩ := Fin.ext (by
        have e : (k0_off2 ⟨n, hlt⟩) 0 = n := congrFun (k0_off2_eq ⟨n, hlt⟩) 0
        show (k0_off2 ⟨n, hlt⟩) 0 + 1 * (x 0).val = n
        omega)
      rw [e0]
      refine congrArg _ (funext fun a => Fin.ext ?_)
      match a with
      | ⟨0, _⟩ => show (x 0).val = 0; omega
      | ⟨1, _⟩ =>
        have e : (k0_off2 ⟨n, hlt⟩) 1 = 0 := congrFun (k0_off2_eq ⟨n, hlt⟩) 1
        show (x 1).val = (k0_off2 ⟨n, hlt⟩) 1 + 1 * (x 1).val
        omega
      | ⟨2, _⟩ =>
        have e : (k0_off2 ⟨n, hlt⟩) 2 = 0 := congrFun (k0_off2_eq ⟨n, hlt⟩) 2
        show (x 2).val = (k0_off2 ⟨n, hlt⟩) 2 + 1 * (x 2).val
        omega
    · exact pieces_restrict c i arg1 harg1 arg2 harg2 arg3 harg3 arg4 harg4 x0 x1 inb n (Nat.le_of_lt hlt) p h x

/-- What the body's run leaves in the output's staging buffer is `blockOut` of the two input blocks. -/
theorem out_eq (c : Dev nD) (i : grid0.Coords) (arg1 : Memref sig .tc .vmem S8x512 .f32) (harg1 : arg1.IsWhole) (arg2 : Memref sig .tc .vmem S8x512x512 .f32) (harg2 : arg2.IsWhole) (arg3 : Memref sig .tc .vmem S8x512x512 .f32) (harg3 : arg3.IsWhole) (arg4 : Memref sig .tc .vmem S8x512 .f32) (harg4 : arg4.IsWhole)
    (x0 : Vec F S8x512 .f32) (x1 : Vec F S8x512x512 .f32) :
    out0_A_2 c i arg1 harg1 arg2 harg2 arg3 harg3 arg4 harg4 x0 x1 = blockOut x0 x1 := by
  unfold out0_A_2
  rw [View.read_writes_junk_eq_canon]
  funext y
  refine View.canon_apply_of_pieces (blockOut x0 x1) _ ?_ y (cover0_A_2 c i arg1 harg1 arg2 harg2 arg3 harg3 arg4 harg4 x0 x1 y)
  rw [run_pieces c i arg1 harg1 arg2 harg2 arg3 harg3 arg4 harg4 x0 x1 (fun a => by match a with | ⟨0, _⟩ => exact Nat.le_refl _ | ⟨1, _⟩ => exact Nat.le_refl _)]
  exact pieces_restrict c i arg1 harg1 arg2 harg2 arg3 harg3 arg4 harg4 x0 x1 _ k0_t1_loop.trips (Nat.le_refl _)

end Cert.KernelIdeal.BlockPieces

end
-- ==== Proof.LibKeepdims.lean ====
/-
  Layout and reduction lemmas for rank-2 arrays read by coordinates, in the style of the library's
  `Lib/ValueLayout.lean`: the keepdims COLUMN forms (a vector cast to one column, a column broadcast
  along the rows), and a one-axis reduction of an `[a, b]` array — a kernel's `vector.multi_reduction`
  by `add` or `maximumf` over either axis, the host's one-operand `stablehlo.reduce` by `maximum`
  over the second axis — as a `Fin`-indexed sum or fold of the entries `(i, k)` / `(k, j)`.
  Program-independent: only shapes `[a]`, `[a, 1]`, `[a, b]` with the extents as variables.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

variable {φ : FTy}

/-- A float `multi_reduction <add>` of an `[a, b]` array over its second axis, at row `i`: the row's sum. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = ∑ k : Fin b, src (ix2 i k)
  refine Finset.sum_congr rfl fun k _ => congrArg src (funext fun ax => Fin.ext ?_)
  match ax with
  | ⟨0, _⟩ => rfl
  | ⟨1, _⟩ => rfl

/-- A float `multi_reduction <add>` of an `[a, b]` array over its first axis, at column `j`: the column's sum. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  show ∑ k : Fin a, src (h.lift (ix1 j) k) = ∑ k : Fin a, src (ix2 k j)
  refine Finset.sum_congr rfl fun k _ => congrArg src (funext fun ax => Fin.ext ?_)
  match ax with
  | ⟨0, _⟩ => rfl
  | ⟨1, _⟩ => rfl

/-- A float `multi_reduction <maximumf>` of an `[a, b]` array over its second axis, at row `i`: the fold of
    `max` from the accumulator's value over the row. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  refine congrArg (fun f => (Finset.univ : Finset (Fin b)).fold max (Ideal.ofBits φ acc) f)
    (funext fun k => congrArg src (funext fun ax => Fin.ext ?_))
  match ax with
  | ⟨0, _⟩ => rfl
  | ⟨1, _⟩ => rfl

/-- The host's one-operand `stablehlo.reduce` by `maximum` of an `[a, b]` array over its second axis, at row
    `i`, read at the extended reals: the fold of `max` from the initial value over the row. -/
theorem hostReduce_max_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun k => x (ix2 i k)) := by
  refine (Host.reduce_eq_fold_single (FloatOps.maximumf (F := Ideal) (φ := φ)) x init h' h hu (ix1 i)).trans ?_
  show (Finset.univ : Finset (Fin b)).fold max (init (Shape.Idx.first hu)) (fun k => x (h.lift (ix1 i) k)) = _
  refine congrArg (fun f => (Finset.univ : Finset (Fin b)).fold max (init (Shape.Idx.first hu)) f)
    (funext fun k => congrArg x (funext fun ax => Fin.ext ?_))
  match ax with
  | ⟨0, _⟩ => rfl
  | ⟨1, _⟩ => rfl

/-! ### The same at `f32` with the accumulator's word written out

At `f32` the neutral word of `add` is `0x00000000` and that of `maximumf` is `0xFF800000` (`-∞`): with the
accumulator written as that word, the evidence that it is the kind's neutral word is the word's equation with itself. -/

theorem add_rows_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) :=
  multiReduction_add_rows src _ h hφ hacc i

theorem add_cols_f32 {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) :=
  multiReduction_add_cols src _ h hφ hacc j

theorem max_rows_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) :=
  multiReduction_max_rows src _ h hφ hacc i

/-- The one entry of a `[1, 1]` array, extracted at `[0, 0]`. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun ax => Fin.ext ?_)
  match ax with
  | ⟨0, _⟩ => rfl
  | ⟨1, _⟩ => rfl

end Cert.Keepdims

end
-- ==== Proof.JacobianCollapse.lean ====
/-
  The softmax Jacobian `J = diag(s) - s sᵀ` sandwiches a square matrix `A` as
      (J A Jᵀ)_{ij} = s_i s_j (A_{ij} - u_i - v_j + α),   u = A s,  v = Aᵀ s,  α = sᵀ A s.
  Here the identity is stated in the two arrangements this certificate meets: on the left the double
  contraction `∑_l J_{il} ∑_k A_{lk} J_{jk}` with `J_{il} = s_i (δ_{il} - s_l)`, on the right the
  collapsed product with `α` folded into `u` first, `s_i s_j ((A_{ij} - (u_i - α)) - v_j)`.
  It is proved over the reals (distributivity, then the Kronecker deltas pick one term of each sum) and
  carried to the extended reals for real-valued `s` and `A`, where the coercion commutes with every
  operation involved. It is false at infinite entries, which is why the claims that use it need the
  inputs finite.
-/
import Idealize.ShloMosaic.PureOps.Ideal

noncomputable section

namespace Cert.JacobianCollapse

variable {ι : Type} [Fintype ι] [DecidableEq ι]

/-- The double contraction with the softmax Jacobian on both sides (the reference's arrangement). -/
def sandwich (S : ι → EReal) (E : ι → ι → EReal) (i j : ι) : EReal :=
  ∑ l, (S i * ((if i = l then 1 else 0) - S l)) * ∑ k, E l k * (S j * ((if j = k then 1 else 0) - S k))

/-- The collapsed product, `α` folded into `u` (the kernel's arrangement). -/
def collapsed (S : ι → EReal) (E : ι → ι → EReal) (i j : ι) : EReal :=
  (S i * S j) * ((E i j - ((∑ k, E i k * S k) - ∑ l, S l * ∑ k, E l k * S k)) - ∑ l, E l j * S l)

/-- Over the reals the two arrangements agree. -/
theorem collapse_real (a : ι → ℝ) (A : ι → ι → ℝ) (i j : ι) :
    ∑ l, (a i * ((if i = l then 1 else 0) - a l)) * ∑ k, A l k * (a j * ((if j = k then 1 else 0) - a k))
      = (a i * a j) * ((A i j - ((∑ k, A i k * a k) - ∑ l, a l * ∑ k, A l k * a k)) - ∑ l, A l j * a l) := by
  have inner : ∀ l, ∑ k, A l k * (a j * ((if j = k then 1 else 0) - a k)) = a j * (A l j - ∑ k, A l k * a k) := by
    intro l
    have h : ∀ k, A l k * (a j * ((if j = k then (1 : ℝ) else 0) - a k))
        = a j * ((if j = k then A l k else 0) - A l k * a k) := by
      intro k; split_ifs <;> ring
    simp only [h, ← Finset.mul_sum, Finset.sum_sub_distrib, Finset.sum_ite_eq, Finset.mem_univ, if_true]
  have outer : ∀ l, (a i * ((if i = l then (1 : ℝ) else 0) - a l)) * (a j * (A l j - ∑ k, A l k * a k))
      = (a i * a j) * ((if i = l then (A l j - ∑ k, A l k * a k) else 0)
          - (A l j * a l - a l * ∑ k, A l k * a k)) := by
    intro l; split_ifs <;> ring
  simp only [inner, outer, ← Finset.mul_sum, Finset.sum_sub_distrib, Finset.sum_ite_eq, Finset.mem_univ, if_true]
  ring

/-- The coercion of the reals into the extended reals commutes with a finite sum. -/
theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem delta_coe (p : Prop) [Decidable p] : (if p then (1 : EReal) else 0) = ((if p then (1 : ℝ) else 0 : ℝ) : EReal) := by
  split_ifs <;> simp

/-- Over the extended reals the two arrangements agree at real-valued `s` and `A`. -/
theorem collapse (S : ι → EReal) (E : ι → ι → EReal) (hS : ∀ i, ∃ r : ℝ, S i = r) (hE : ∀ i j, ∃ r : ℝ, E i j = r)
    (i j : ι) : sandwich S E i j = collapsed S E i j := by
  choose a ha using hS
  choose A hA using hE
  unfold sandwich collapsed
  simp only [ha, hA, delta_coe, ← EReal.coe_mul, ← EReal.coe_sub, ← coe_sum]
  exact congrArg _ (collapse_real a A i j)

end Cert.JacobianCollapse

end
-- ==== Proof.Target.lean ====
/-
  The two results as functions of the argument arrays, over the extended reals.
  `mu_out` is the same host computation in both programs and is never opened here. `Sigma_out` at
  `(b, i, j)` is, for `s` the softmax of row `b` of `mu` and `A` slab `b` of `Sigma`, the entry `(i, j)` of
  `J A Jᵀ` with `J = diag(s) - s sᵀ`: the reference computes the double contraction (`sigmaRef`), the kernel the
  collapsed product (`sigmaOut`). A row's softmax is `exp(x_j - M) / ∑_k exp(x_k - M)` with `M` the row's maximum
  taken from `-∞`; at a finite row, `M` is finite, every exponential is a positive real and so is their sum, so
  the softmax is real-valued, which is what the collapse of the Jacobian sandwich asks of `s`.
-/
import Mathlib.Data.Finset.Fold
import Idealize.ShloMosaic.PureOps.Ideal.Laws
import Idealize.ShloMosaic.Lib.ValueIdx
import proofs.«423870_j36421322670459_3_alg».proof.Proof.JacobianCollapse

noncomputable section

namespace Cert.Target

open Idealize.ShloMosaic Idealize.ShloMosaic.ValueIdx

/-- `-∞`, as both programs spell the initial value of a maximum. -/
abbrev negInf : EReal := Ideal.ofBits .f32 0xFF800000#32

theorem negInf_eq : negInf = ⊥ := by simp [negInf, Ideal.ofBits, Ideal.ieee]

/-- A row's maximum as the programs take it: from `-∞`, and once more against `-∞`. -/
def rowMax {n : ℕ} (x : Fin n → EReal) : EReal := max negInf ((Finset.univ : Finset (Fin n)).fold max negInf x)

/-- The softmax of a row of extended reals. -/
def rowSoftmax {n : ℕ} (x : Fin n → EReal) (j : Fin n) : EReal :=
  Ideal.div (Ideal.exp (x j - rowMax x)) (∑ k, Ideal.exp (x k - rowMax x))

/-- The maximum of a nonempty row of reals is a real. -/
theorem rowMax_real {n : ℕ} (hn : 0 < n) (x : Fin n → EReal) (hx : ∀ j, ∃ r : ℝ, x j = r) : ∃ r : ℝ, rowMax x = r := by
  have hlt : rowMax x < ⊤ := by
    unfold rowMax
    refine max_lt (by rw [negInf_eq]; exact bot_lt_top) ((Finset.fold_max_lt _).mpr ⟨by rw [negInf_eq]; exact bot_lt_top, fun j _ => ?_⟩)
    obtain ⟨r, hr⟩ := hx j; rw [hr]; exact EReal.coe_lt_top r
  have hgt : ⊥ < rowMax x := by
    obtain ⟨r, hr⟩ := hx ⟨0, hn⟩
    have h1 : x ⟨0, hn⟩ ≤ (Finset.univ : Finset (Fin n)).fold max negInf x :=
      (Finset.le_fold_max _).mpr (Or.inr ⟨⟨0, hn⟩, Finset.mem_univ _, le_refl _⟩)
    refine lt_of_lt_of_le ?_ (le_trans h1 (le_max_right _ _))
    rw [hr]; exact EReal.bot_lt_coe r
  exact ⟨(rowMax x).toReal, (EReal.coe_toReal (ne_of_lt hlt) (ne_of_gt hgt)).symm⟩

/-- The softmax of a nonempty row of reals is real-valued. -/
theorem rowSoftmax_real {n : ℕ} (hn : 0 < n) (x : Fin n → EReal) (hx : ∀ j, ∃ r : ℝ, x j = r) (j : Fin n) :
    ∃ r : ℝ, rowSoftmax x j = r := by
  obtain ⟨M, hM⟩ := rowMax_real hn x hx
  choose a ha using hx
  have hS : (0 : ℝ) < ∑ k, Real.exp (a k - M) :=
    Finset.sum_pos (fun k _ => Real.exp_pos _) ⟨⟨0, hn⟩, Finset.mem_univ _⟩
  refine ⟨Real.exp (a j - M) * (1 / ∑ k, Real.exp (a k - M)), ?_⟩
  unfold rowSoftmax
  simp only [hM, ha, ← EReal.coe_sub, Ideal.exp_coe, ← JacobianCollapse.coe_sum]
  rw [Ideal.div_coe (ne_of_gt hS), ← EReal.coe_mul]

abbrev SMu : Shape := ⟨2, ![256, 512]⟩
abbrev SSigma : Shape := ⟨3, ![256, 512, 512]⟩

/-- Row `b` of `mu`. -/
def muRow (mu : SMu.Idx → EReal) (b : Fin 256) : Fin 512 → EReal := fun j => mu (ix2 b j)

/-- Slab `b` of `Sigma`. -/
def sigmaSlab (sg : SSigma.Idx → EReal) (b : Fin 256) : Fin 512 → Fin 512 → EReal := fun i j => sg (ix3 b i j)

/-- `Sigma_out` in the kernel's arrangement. -/
def sigmaOut (mu : SMu.Idx → EReal) (sg : SSigma.Idx → EReal) : SSigma.Idx → EReal := fun y =>
  JacobianCollapse.collapsed (rowSoftmax (muRow mu ⟨(y 0).val, (y 0).isLt⟩)) (sigmaSlab sg ⟨(y 0).val, (y 0).isLt⟩)
    (⟨(y 1).val, (y 1).isLt⟩ : Fin 512) (⟨(y 2).val, (y 2).isLt⟩ : Fin 512)

/-- `Sigma_out` in the reference's arrangement. -/
def sigmaRef (mu : SMu.Idx → EReal) (sg : SSigma.Idx → EReal) : SSigma.Idx → EReal := fun y =>
  JacobianCollapse.sandwich (rowSoftmax (muRow mu ⟨(y 0).val, (y 0).isLt⟩)) (sigmaSlab sg ⟨(y 0).val, (y 0).isLt⟩)
    (⟨(y 1).val, (y 1).isLt⟩ : Fin 512) (⟨(y 2).val, (y 2).isLt⟩ : Fin 512)

/-- At finite arguments the two arrangements are one function. -/
theorem sigmaRef_eq (mu : SMu.Idx → EReal) (sg : SSigma.Idx → EReal) (hmu : ∀ i, ∃ r : ℝ, mu i = r) (hsg : ∀ i, ∃ r : ℝ, sg i = r) :
    sigmaRef mu sg = sigmaOut mu sg :=
  funext fun y => JacobianCollapse.collapse _ _
    (fun i => rowSoftmax_real (by decide) _ (fun j => hmu _) i) (fun i j => hsg _) _ _

end Cert.Target

end
-- ==== Proof.PayloadValue.lean ====
/-
  The body's two stored values read at an index, over the extended reals.
  The whole-tile store is the row softmax of the `8 × 512` tile: row `b` of it is the softmax of row `b`.
  A trip's store, for `s` the row it loaded from the scratch and `A` the slab of `Sigma` it loaded, is at
  `(i, j)` the collapsed product `s_i s_j ((A_ij - (u_i - α)) - v_j)` with `u = A s` (a lane sum per row),
  `v = Aᵀ s` (a sublane sum per column) and `α = ∑_k s_k u_k`.
-/
import proofs.«423870_j36421322670459_3_alg».proof.Proof.Gen.KernelIdeal.Skeleton
import proofs.«423870_j36421322670459_3_alg».proof.Proof.LibKeepdims
import proofs.«423870_j36421322670459_3_alg».proof.Proof.Target

noncomputable section

namespace Cert.KernelIdeal.PayloadValue

open Cert.KernelIdeal Cert.KernelIdeal.Gen Idealize.ShloMosaic Idealize.ShloMosaic.ValueIdx Cert.Keepdims

theorem exp_apply {s : Shape} {φ : FTy} (a : FVec Ideal s φ) (i : s.Idx) : exp a i = Ideal.exp (a i) := rfl

/-- An `[8]` vector, cast to a column and broadcast along the lanes, reads its entry of the row. -/
theorem col8 (v : FVec Ideal S8 .f32) (h1 : S8.ShapeCasts S8x1) (h2 : S8x1.Broadcasts S8x512) (b : Fin 8) (j : Fin 512) :
    broadcastTo S8x512 (shapeCast S8x1 v h1) h2 (ix2 b j) = v (ix1 b) :=
  (broadcastTo_a1_ab_apply _ h2 b j).trans (shapeCast_a_a1_apply v h1 b 0)

/-- A `[512]` vector, cast to a column and broadcast along the lanes, reads its entry of the row. -/
theorem col512 (v : FVec Ideal S512 .f32) (h1 : S512.ShapeCasts S512x1) (h2 : S512x1.Broadcasts S512x512) (i j : Fin 512) :
    broadcastTo S512x512 (shapeCast S512x1 v h1) h2 (ix2 i j) = v (ix1 i) :=
  (broadcastTo_a1_ab_apply _ h2 i j).trans (shapeCast_a_a1_apply v h1 i 0)

/-- A `[512]` vector, cast to a row and broadcast along the sublanes, reads its entry of the column. -/
theorem row512 (v : FVec Ideal S512 .f32) (h1 : S512.ShapeCasts S1x512) (h2 : S1x512.Broadcasts S512x512) (i j : Fin 512) :
    broadcastTo S512x512 (shapeCast S1x512 v h1) h2 (ix2 i j) = v (ix1 j) :=
  (broadcastTo_1b_ab_apply _ h2 i j).trans (shapeCast_a_1a_apply v h1 0 j)

/-- The lane sum of a `512 × 512` array at row `i`. -/
theorem rowsum512 (src : FVec Ideal S512x512 .f32) (h : S512x512.Reduces [1] S512) (hφ : FKind.Formats .f32)
    (hacc : (0x00000000#32 : BitVec 32) = 0x00000000#32) (i : Fin 512) :
    multiReduction .add [1] S512 src 0x00000000#32 h hφ hacc (ix1 i) = ∑ k : Fin 512, src (ix2 i k) :=
  add_rows_f32 src h hφ hacc i

/-- The sublane sum of a `512 × 512` array at column `j`. -/
theorem colsum512 (src : FVec Ideal S512x512 .f32) (h : S512x512.Reduces [0] S512) (hφ : FKind.Formats .f32)
    (hacc : (0x00000000#32 : BitVec 32) = 0x00000000#32) (j : Fin 512) :
    multiReduction .add [0] S512 src 0x00000000#32 h hφ hacc (ix1 j) = ∑ k : Fin 512, src (ix2 k j) :=
  add_cols_f32 src h hφ hacc j

/-- The lane sum of a one-row array. -/
theorem rowsum1 (src : FVec Ideal S1x512 .f32) (h : S1x512.Reduces [1] S1) (hφ : FKind.Formats .f32)
    (hacc : (0x00000000#32 : BitVec 32) = 0x00000000#32) (i : Fin 1) :
    multiReduction .add [1] S1 src 0x00000000#32 h hφ hacc (ix1 i) = ∑ k : Fin 512, src (ix2 i k) :=
  add_rows_f32 src h hφ hacc i

/-- The whole-tile store at `(b, j)`: the softmax of row `b`, at `j`. -/
theorem pay1_apply (x0 : FVec Ideal S8x512 .f32) (b : Fin 8) (j : Fin 512) :
    k0_pay1 (F := Ideal) x0 (ix2 b j) = Target.rowSoftmax (fun k => x0 (ix2 b k)) j := by
  unfold k0_pay1
  dsimp only
  rw [shapeCast_self]
  have hmx : ∀ b' : Fin 8, (maximumf (broadcast S8 (Scalar.ofBits (F := Ideal) .f32 0xFF800000#32))
      (multiReduction .maximumf [1] S8 x0 0xFF800000#32 reduces_S8x512_S8 (.inl rfl) rfl)) (ix1 b')
        = Target.rowMax (fun k => x0 (ix2 b' k)) := fun b' => by
    rw [maximumf_apply, max_rows_f32]; rfl
  unfold Target.rowSoftmax
  rw [divf_apply, exp_apply, subf_apply, col8, col8, hmx, add_rows_f32]
  refine congrArg _ (Finset.sum_congr rfl fun k _ => ?_)
  rw [exp_apply, subf_apply, col8, hmx]

/-- `u = A s`: the lane sum of `A` weighted by the row `s`, at `a`. -/
theorem u_apply (v17 : FVec Ideal S1x512 .f32) (v21 : FVec Ideal S1x512x512 .f32)
    (h1 : S1x512x512.ShapeCasts S512x512) (h2 : S1x512.ShapeCasts S512) (h3 : S512.ShapeCasts S1x512) (h4 : S1x512.Broadcasts S512x512)
    (hr : S512x512.Reduces [1] S512) (hφ : FKind.Formats .f32) (hacc : (0x00000000#32 : BitVec 32) = 0x00000000#32) (a : Fin 512) :
    multiReduction (F := Ideal) .add [1] S512
        (mulf (shapeCast S512x512 v21 h1) (broadcastTo S512x512 (shapeCast S1x512 (shapeCast S512 v17 h2) h3) h4))
        0x00000000#32 hr hφ hacc (ix1 a)
      = ∑ k, v21 (ix3 (0 : Fin 1) a k) * v17 (ix2 (0 : Fin 1) k) := by
  rw [rowsum512]
  simp only [mulf_apply, row512, shapeCast_1a_a_apply, shapeCast_1ab_ab_apply]

/-- `w = Aᵀ s`: the sublane sum of `A` weighted by the column `s`, at `b`. -/
theorem w_apply (v17 : FVec Ideal S1x512 .f32) (v21 : FVec Ideal S1x512x512 .f32)
    (h1 : S1x512x512.ShapeCasts S512x512) (h2 : S1x512.ShapeCasts S512) (h3 : S512.ShapeCasts S512x1) (h4 : S512x1.Broadcasts S512x512)
    (hr : S512x512.Reduces [0] S512) (hφ : FKind.Formats .f32) (hacc : (0x00000000#32 : BitVec 32) = 0x00000000#32) (b : Fin 512) :
    multiReduction (F := Ideal) .add [0] S512
        (mulf (shapeCast S512x512 v21 h1) (broadcastTo S512x512 (shapeCast S512x1 (shapeCast S512 v17 h2) h3) h4))
        0x00000000#32 hr hφ hacc (ix1 b)
      = ∑ k, v21 (ix3 (0 : Fin 1) k b) * v17 (ix2 (0 : Fin 1) k) := by
  rw [colsum512]
  simp only [mulf_apply, col512, shapeCast_1a_a_apply, shapeCast_1ab_ab_apply]

/-- `α = sᵀ A s`: the lane sum of `s` times `u`. -/
theorem alpha_apply (v17 : FVec Ideal S1x512 .f32) (v21 : FVec Ideal S1x512x512 .f32)
    (h1 : S1x512x512.ShapeCasts S512x512) (h2 : S1x512.ShapeCasts S512) (h3 : S512.ShapeCasts S1x512) (h4 : S1x512.Broadcasts S512x512)
    (hr : S512x512.Reduces [1] S512) (hr1 : S1x512.Reduces [1] S1) (hφ : FKind.Formats .f32)
    (hacc : (0x00000000#32 : BitVec 32) = 0x00000000#32) (z : Fin 1) :
    multiReduction (F := Ideal) .add [1] S1
        (shapeCast S1x512 (mulf (shapeCast S512 v17 h2)
          (multiReduction (F := Ideal) .add [1] S512
            (mulf (shapeCast S512x512 v21 h1) (broadcastTo S512x512 (shapeCast S1x512 (shapeCast S512 v17 h2) h3) h4))
            0x00000000#32 hr hφ hacc)) h3)
        0x00000000#32 hr1 hφ hacc (ix1 z)
      = ∑ l, v17 (ix2 (0 : Fin 1) l) * ∑ k, v21 (ix3 (0 : Fin 1) l k) * v17 (ix2 (0 : Fin 1) k) := by
  rw [rowsum1]
  refine Finset.sum_congr rfl fun l _ => ?_
  rw [shapeCast_a_1a_apply, mulf_apply, shapeCast_1a_a_apply, u_apply]

/-- A trip's store at `(0, i, j)`: the collapsed product of the loaded row and slab. -/
theorem pay2_apply (v17 : FVec Ideal S1x512 .f32) (v21 : FVec Ideal S1x512x512 .f32) (i j : Fin 512) :
    k0_pay2 (F := Ideal) v17 v21 (ix3 (0 : Fin 1) i j)
      = JacobianCollapse.collapsed (fun a => v17 (ix2 (0 : Fin 1) a)) (fun a b => v21 (ix3 (0 : Fin 1) a b)) i j := by
  unfold k0_pay2 JacobianCollapse.collapsed
  dsimp only
  simp only [shapeCast_ab_1ab_apply, mulf_apply, subf_apply, col512, row512, broadcast_apply, extractAt_11,
    shapeCast_a_a1_apply, shapeCast_1a_a_apply, shapeCast_1ab_ab_apply]
  rw [alpha_apply, u_apply, w_apply]

end Cert.KernelIdeal.PayloadValue

end
-- ==== Proof.KernelSide.lean ====
/-
  The kernel's two results after its run, as functions of the argument arrays.
  `Sigma_out`: grid point `t` stages rows `8t … 8t+7` of `mu` and slabs `8t … 8t+7` of `Sigma`, and writes back
  slabs `8t … 8t+7` of the output; what it writes back at `(b, i, j)` of its block is the collapsed Jacobian
  product of the softmax of row `8t + b` of `mu` and slab `8t + b` of `Sigma`, at `(i, j)` — the block `t` of the
  one whole-array function `Target.sigmaOut`. The 32 blocks tile the array (the point that covers slab `r` is
  `r / 8`), so the array ends at that function. `mu_out` is written by the host before the region and the
  region leaves it alone.
-/
import proofs.«423870_j36421322670459_3_alg».proof.Proof.Gen.KernelIdeal.Value
import proofs.«423870_j36421322670459_3_alg».proof.Proof.BlockPieces
import proofs.«423870_j36421322670459_3_alg».proof.Proof.PayloadValue
import proofs.«423870_j36421322670459_3_alg».proof.Proof.Target
import Idealize.ShloMosaic.Lib.StableHlo.Run

set_option maxRecDepth 16384

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.KernelIdeal.BlockPieces Cert.KernelIdeal.PayloadValue

/-- The output block as a formula: at `(b, i, j)` the collapsed product of the softmax of row `b` of the `mu`
    tile and slab `b` of the `Sigma` tile. -/
theorem blockOut_apply (x0 : Vec Ideal S8x512 .f32) (x1 : Vec Ideal S8x512x512 .f32) (b : Fin 8) (i j : Fin 512) :
    blockOut x0 x1 (ix3 b i j)
      = JacobianCollapse.collapsed (Target.rowSoftmax fun k => x0 (ix2 b k)) (fun a a' => x1 (ix3 b a a')) i j := by
  have h1 : (fun a : Fin 512 => rowOf (F := Ideal) (k0_pay1 (F := Ideal) x0) b (ix2 (0 : Fin 1) a)) = Target.rowSoftmax (fun k => x0 (ix2 b k)) :=
    funext fun a => pay1_apply x0 b a
  refine (pay2_apply (rowOf (F := Ideal) (k0_pay1 (F := Ideal) x0) b) (slabOf (F := Ideal) x1 b) i j).trans ?_
  rw [h1]
  rfl

/-- `Target.sigmaOut` at an index whose coordinates are known. -/
theorem sigmaOut_at (mu : Target.SMu.Idx → EReal) (sg : Target.SSigma.Idx → EReal) (y : Target.SSigma.Idx) (R : Fin 256) (I J : Fin 512)
    (h0 : (y 0).val = R.val) (h1 : (y 1).val = I.val) (h2 : (y 2).val = J.val) :
    Target.sigmaOut mu sg y
      = JacobianCollapse.collapsed (Target.rowSoftmax (Target.muRow mu R)) (Target.sigmaSlab sg R) I J := by
  unfold Target.sigmaOut
  have e0 : (⟨(y 0).val, (y 0).isLt⟩ : Fin 256) = R := Fin.ext h0
  have e1 : (⟨(y 1).val, (y 1).isLt⟩ : Fin 512) = I := Fin.ext h1
  have e2 : (⟨(y 2).val, (y 2).isLt⟩ : Fin 512) = J := Fin.ext h2
  rw [e0, e1, e2]

variable (m : (ℓ : Loc nD τ sig) → Buf (Elt Ideal) ℓ) (ρ : Dev nD → PrngReg)

/-- The two argument arrays as the region finds them, and their blocks at a grid point, at their literal types. -/
abbrev muArr (c : Dev nD) : Vec Ideal S256x512 .f32 := V m c main_arg0
abbrev sgArr (c : Dev nD) : Vec Ideal S256x512x512 .f32 := V m c main_arg1
abbrev muBlk (c : Dev nD) (t : Fin cfg0.N) : Vec Ideal S8x512 .f32 := iblk m c 0 t
abbrev sgBlk (c : Dev nD) (t : Fin cfg0.N) : Vec Ideal S8x512x512 .f32 := iblk m c 1 t

/-- The printed index maps over the grid: both inputs move with the output along the batch axis and sit at block 0
    on the others; the output's batch block index is the point's, at most 31. -/
theorem idx_facts : ∀ t : Fin cfg0.N, win0_0.index t (0 : Fin 2) = win0_2.index t (0 : Fin 3)
    ∧ win0_0.index t (1 : Fin 2) = 0
    ∧ win0_1.index t (0 : Fin 3) = win0_2.index t (0 : Fin 3)
    ∧ win0_1.index t (1 : Fin 3) = 0
    ∧ win0_1.index t (2 : Fin 3) = 0
    ∧ win0_2.index t (1 : Fin 3) = 0
    ∧ win0_2.index t (2 : Fin 3) = 0
    ∧ win0_2.index t (0 : Fin 3) ≤ 31 :=
  (by decide +kernel : ∀ t : Fin grid0.N, _)

/-- Every batch block is some point's. -/
theorem idx_onto : ∀ q : Fin 32, ∃ t : Fin cfg0.N, win0_2.index t = ![q.val, 0, 0] :=
  (by decide +kernel : ∀ q : Fin 32, ∃ t : Fin grid0.N, win0_2.index t = ![q.val, 0, 0])

/-- Row `b` of the `mu` tile at point `t` is row `8t + b` of `mu`. -/
theorem muBlk_apply (c : Dev nD) (t : Fin cfg0.N) (b : Fin 8) (k : Fin 512) (R : Fin 256)
    (hR : R.val = win0_2.index t (0 : Fin 3) * 8 + b.val) : muBlk m c t (ix2 b k) = muArr m c (ix2 R k) := by
  obtain ⟨e0, e1, e2, e3, e4, e5, e6, e7⟩ := idx_facts t
  show V m c main_arg0 (((cfg0.win 0).blk t).view.emb (ix2 b k)) = V m c main_arg0 (ix2 R k)
  refine congrArg (V m c main_arg0) (funext fun a => Fin.ext ?_)
  match a with
  | ⟨0, _⟩ => show win0_0.index t (0 : Fin 2) * 8 + 1 * b.val = R.val; omega
  | ⟨1, _⟩ => show win0_0.index t (1 : Fin 2) * 512 + 1 * k.val = k.val; omega

/-- Slab `b` of the `Sigma` tile at point `t` is slab `8t + b` of `Sigma`. -/
theorem sgBlk_apply (c : Dev nD) (t : Fin cfg0.N) (b : Fin 8) (i j : Fin 512) (R : Fin 256)
    (hR : R.val = win0_2.index t (0 : Fin 3) * 8 + b.val) : sgBlk m c t (ix3 b i j) = sgArr m c (ix3 R i j) := by
  obtain ⟨e0, e1, e2, e3, e4, e5, e6, e7⟩ := idx_facts t
  show V m c main_arg1 (((cfg0.win 1).blk t).view.emb (ix3 b i j)) = V m c main_arg1 (ix3 R i j)
  refine congrArg (V m c main_arg1) (funext fun a => Fin.ext ?_)
  match a with
  | ⟨0, _⟩ => show win0_1.index t (0 : Fin 3) * 8 + 1 * b.val = R.val; omega
  | ⟨1, _⟩ => show win0_1.index t (1 : Fin 3) * 512 + 1 * i.val = i.val; omega
  | ⟨2, _⟩ => show win0_1.index t (2 : Fin 3) * 512 + 1 * j.val = j.val; omega

/-- What point `t` writes back is block `t` of `Target.sigmaOut` of the argument arrays as the region finds them. -/
theorem flushed_eq (c : Dev nD) (t : Fin cfg0.N) :
    (dats m 0 c).flushed 2 t = ((cfg0.win 2).blk t).view.read (Elt Ideal) (Target.sigmaOut (muArr m c) (sgArr m c)) := by
  rw [flushed2_A, BlockPieces.out_eq]
  obtain ⟨e0, e1, e2, e3, e4, e5, e6, e7⟩ := idx_facts t
  funext y
  obtain ⟨b, i, j, rfl⟩ : ∃ (b : Fin 8) (i j : Fin 512), y = ix3 b i j := ⟨y 0, y 1, y 2, eq_ix3 y⟩
  show blockOut (muBlk m c t) (sgBlk m c t) (ix3 b i j)
    = Target.sigmaOut (muArr m c) (sgArr m c) (((cfg0.win 2).blk t).view.emb (ix3 b i j))
  have hb : b.val < 8 := b.isLt
  have hRlt : win0_2.index t (0 : Fin 3) * 8 + b.val < 256 := by omega
  have hmu : (fun k => muBlk m c t (ix2 b k)) = Target.muRow (muArr m c) ⟨_, hRlt⟩ :=
    funext fun k => muBlk_apply m c t b k ⟨_, hRlt⟩ rfl
  have hsg : (fun a a' => sgBlk m c t (ix3 b a a')) = Target.sigmaSlab (sgArr m c) ⟨_, hRlt⟩ :=
    funext fun a => funext fun a' => sgBlk_apply m c t b a a' ⟨_, hRlt⟩ rfl
  refine (blockOut_apply _ _ b i j).trans ?_
  rw [hmu, hsg]
  refine (sigmaOut_at _ _ _ ⟨_, hRlt⟩ i j ?_ ?_ ?_).symm
  · show win0_2.index t (0 : Fin 3) * 8 + 1 * b.val = win0_2.index t (0 : Fin 3) * 8 + b.val; omega
  · show win0_2.index t (1 : Fin 3) * 512 + 1 * i.val = i.val; omega
  · show win0_2.index t (2 : Fin 3) * 512 + 1 * j.val = j.val; omega

/-- An index of the array is in point `t`'s block iff each coordinate is in the block's range on its axis. -/
theorem mem_blk (t : Fin cfg0.N) (i : S256x512x512.Idx) :
    i ∈ ((cfg0.win 2).blk t).view.set ↔ ∀ a : Fin 3, win0_2.index t a * S8x512x512.size a ≤ (i a).val
      ∧ (i a).val < win0_2.index t a * S8x512x512.size a + S8x512x512.size a := by
  show i ∈ ((View.whole main_v11).slice (win0_2.rect t)).set ↔ _
  rw [View.set_slice_whole, Rect.mem_set_unit]
  exact Iff.rfl

/-- Every index of the output array is in the block of the point that handles its batch tile. -/
theorem cover (i : S256x512x512.Idx) :
    ∃ t : Fin cfg0.N, (cfg0.win 2).flush t = true ∧ i ∈ ((cfg0.win 2).blk t).view.set := by
  have hi0 : (i 0).val < 256 := (i 0).isLt
  have hi1 : (i 1).val < 512 := (i 1).isLt
  have hi2 : (i 2).val < 512 := (i 2).isLt
  obtain ⟨t, ht⟩ := idx_onto ⟨(i 0).val / 8, by omega⟩
  have q0 : win0_2.index t (0 : Fin 3) = (i 0).val / 8 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 512 ≤ (i 1).val ∧ (i 1).val < win0_2.index t (1 : Fin 3) * 512 + 512; omega
  | ⟨2, _⟩ => show win0_2.index t (2 : Fin 3) * 512 ≤ (i 2).val ∧ (i 2).val < win0_2.index t (2 : Fin 3) * 512 + 512; omega

/-- The output array after the run: `Target.sigmaOut` of the arguments. -/
theorem final (c : Dev nD) :
    (dats m 0 c).arrAt 2 cfg0.N
      = Target.sigmaOut (m ((c : Thread nD τ).loc main_arg0)) (m ((c : Thread nD τ).loc main_arg1)) := by
  rw [(dats m 0 c).arrAt_eq_of_cover 2 (Target.sigmaOut (muArr m c) (sgArr m c)) (fun t _ => flushed_eq m c t) cover]
  show Target.sigmaOut (V m c main_arg0) (V m c main_arg1) = _
  rw [V_main_arg0, V_main_arg1]

/-- `mu_out` as the host computes it before the region: the softmax of `mu` along the batch axis. -/
def muOut (x0 : Vec Ideal S256x512 .f32) : Vec Ideal S256x512 .f32 :=
  Host.divf (F := Ideal) (Host.exp (F := Ideal) (subf x0 (broadcastInDim S256x512 ![0, 1] bcast_S1x512_S256x512_0_1 (broadcastInDim S1x512 ![1] bcast_S512_S1x512_1 (maximumf (broadcastInDim S512 ![] bcast_S_S512 (constant (F := Ideal) S_ .f32 0xFF800000#32)) (Host.reduce FloatOps.maximumf x0 (constant (F := Ideal) S_ .f32 0xFF800000#32) reducesTo_S256x512_S512_d0 h_S_))))))
    (broadcastInDim S256x512 ![0, 1] bcast_S1x512_S256x512_0_1 (broadcastInDim S1x512 ![1] bcast_S512_S1x512_1 (Host.reduceAdd (F := Ideal) (Host.exp (F := Ideal) (subf x0 (broadcastInDim S256x512 ![0, 1] bcast_S1x512_S256x512_0_1 (broadcastInDim S1x512 ![1] bcast_S512_S1x512_1 (maximumf (broadcastInDim S512 ![] bcast_S_S512 (constant (F := Ideal) S_ .f32 0xFF800000#32)) (Host.reduce FloatOps.maximumf x0 (constant (F := Ideal) S_ .f32 0xFF800000#32) reducesTo_S256x512_S512_d0 h_S_)))))) (constant (F := Ideal) S_ .f32 0x00000000#32) reducesTo_S256x512_S512_d0 h_S_)))

/-- The region finds `mu_out` already written by the host operations before it. -/
theorem V_main_v10 (c : Dev nD) : (V m c main_v10 : S256x512.Idx → EReal) = muOut (m ((c : Thread nD τ).loc main_arg0)) := by
  dsimp only [V, hostOps0]
  after_results
  rfl

/-- `mu_out`'s buffer is unscoped and no window stages it: the region leaves it as it found it. -/
theorem main_v10_rest : main_v10 ∈ Pipeline.restRefs sig cfg0.spec :=
  Pipeline.mem_restRefs_of main_v10 rfl (by decide)

/-- The kernel's run: both results at their functions of the arguments, the arguments unchanged. -/
theorem run : θ_run defs (onTc (τ := τ) (main (F := Ideal))) ⟨m, fun _ => 0, ρ⟩ fun r => ∀ c : Dev nD,
      r.2.mem ((c : Thread nD τ).loc main_v10) = muOut (m ((c : Thread nD τ).loc main_arg0))
      ∧ r.2.mem ((c : Thread nD τ).loc main_v11)
          = Target.sigmaOut (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v10 main_v10_rest).trans (V_main_v10 m c),
      (post2 m r h c).trans (final m c),
      kept_main_arg0 m r h c,
      kept_main_arg1 m r h c⟩)
    (run_main m ρ)

end Cert.KernelIdeal.ArrayValue

end
-- ==== Proof.ReferenceSide.lean ====
/-
  The reference's `Sigma_out` as a function of the argument arrays: `Target.sigmaRef`.
  Its host program computes `s`, the softmax of each row of `mu`; the identity matrix as the comparison of two
  iotas converted to floats; `jac[b, i, l] = s[b, i] * (eye[i, l] - s[b, l])`; and two batched matrix products,
  `tmp[b, l, j] = ∑_k Sigma[b, l, k] * jac[b, j, k]` (the second operand transposed first) and
  `Sigma_out[b, i, j] = ∑_l jac[b, i, l] * tmp[b, l, j]`. Read index by index this is the double contraction
  with the softmax Jacobian on both sides.
-/
import proofs.«423870_j36421322670459_3_alg».proof.Proof.Gen.ReferenceIdeal.Read
import proofs.«423870_j36421322670459_3_alg».proof.Proof.LibKeepdims
import proofs.«423870_j36421322670459_3_alg».proof.Proof.Target
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.ValueIdx

/-- The row maximum the reference takes, at row `b`. -/
theorem max_apply (x0 : (⟨S256x512, .f32⟩ : BufTy).Contents (Elt Ideal)) (b : Fin 256) :
    val_main_v13 (F := Ideal) x0 (ix1 b) = Target.rowMax (Target.muRow x0 b) := by
  rw [val_main_v13_apply, val_main_v12_apply, val_main_cst_3_apply]
  unfold val_main_v11
  rw [Keepdims.hostReduce_max_rows (φ := .f32) x0 (val_main_cst_2 (F := Ideal)) reducesTo_S256x512_S256_d1 (by decide) h_S_ b]
  rfl

/-- The exponentials of the shifted row. -/
theorem exp_apply (x0 : (⟨S256x512, .f32⟩ : BufTy).Contents (Elt Ideal)) (b : Fin 256) (k : Fin 512) :
    val_main_v17 (F := Ideal) x0 (ix2 b k) = Ideal.exp (x0 (ix2 b k) - Target.rowMax (Target.muRow x0 b)) := by
  rw [val_main_v17_apply, val_main_v16_apply, val_main_v15_apply, val_main_v14_apply,
    show idx_main_v14 (idx_main_v15 (ix2 b k)) = ix1 b from funext fun a => Fin.ext (by match a with | ⟨0, _⟩ => rfl),
    max_apply]
  rfl

/-- `s`: the softmax of row `b` of `mu`, at `j`. -/
theorem softmax_apply (x0 : (⟨S256x512, .f32⟩ : BufTy).Contents (Elt Ideal)) (b : Fin 256) (j : Fin 512) :
    val_main_v21 (F := Ideal) x0 (ix2 b j) = Target.rowSoftmax (Target.muRow x0 b) j := by
  rw [val_main_v21_apply, val_main_v20_apply, val_main_v19_apply, val_main_v18_apply, exp_apply,
    show idx_main_v19 (idx_main_v20 (ix2 b j)) = ix1 b from funext fun a => Fin.ext (by match a with | ⟨0, _⟩ => rfl)]
  have hs : ∀ k : Fin 512, val_main_v17 (F := Ideal) x0 (idx_main_v18 (ix1 b) k)
      = Ideal.exp (Target.muRow x0 b k - Target.rowMax (Target.muRow x0 b)) := fun k => by
    rw [show idx_main_v18 (ix1 b) k = ix2 b k from funext fun a => Fin.ext (by match a with | ⟨0, _⟩ => rfl | ⟨1, _⟩ => rfl),
      exp_apply]
    rfl
  simp only [hs]
  rw [val_main_cst_4_apply]
  show Ideal.div _ (Ideal.ofBits .f32 0x00000000#32 + _) = _
  rw [Ideal.ofBits_zero_f32, zero_add]
  rfl

/-- Two small words are equal only if their numbers are. -/
theorem eye_word (i l : Fin 512) :
    FloatOps.uitofp (F := Ideal) .f32 (IntOp.cmpi .eq (IntOp.addi (BitVec.ofNat 32 i.val) 0#32) (BitVec.ofNat 32 l.val))
      = if i = l then (1 : EReal) else 0 := by
  have hx : IntOp.addi (BitVec.ofNat 32 i.val) 0#32 = BitVec.ofNat 32 i.val := by
    unfold IntOp.addi; exact BitVec.add_zero _
  have hlt : ∀ a : Fin 512, (BitVec.ofNat 32 a.val).toNat = a.val := fun a => by
    rw [BitVec.toNat_ofNat]; exact Nat.mod_eq_of_lt (Nat.lt_of_lt_of_le a.isLt (by norm_num))
  rw [hx]
  by_cases h : i = l
  · subst h
    rw [if_pos rfl, StableHlo.Predicate.cmpi_eq_iff.mpr rfl]
    show (((1#1 : BitVec 1).toNat : ℝ) : EReal) = 1
    simp
  · have hne : ¬ (BitVec.ofNat 32 i.val = BitVec.ofNat 32 l.val) := fun e =>
      h (Fin.ext (by have := congrArg BitVec.toNat e; rwa [hlt, hlt] at this))
    rw [if_neg h, ValueIdx.eq_zero_of_ne_one (mt StableHlo.Predicate.cmpi_eq_iff.mp hne)]
    show (((0#1 : BitVec 1).toNat : ℝ) : EReal) = 0
    simp

/-- The identity matrix entry. -/
theorem eye_apply (i l : Fin 512) : val_main_v27 (F := Ideal) (ix2 i l) = if i = l then (1 : EReal) else 0 := by
  rw [val_main_v27_apply, val_main_v26_apply, val_main_v25_apply, val_main_v22_apply, val_main_v23_apply,
    val_main_v24_apply, val_main_c_apply]
  exact eye_word i l

/-- The softmax Jacobian entry `jac[b, i, l] = s_i (δ_il - s_l)`. -/
theorem jac_apply (x0 : (⟨S256x512, .f32⟩ : BufTy).Contents (Elt Ideal)) (b : Fin 256) (i l : Fin 512) :
    val_main_v35 (F := Ideal) x0 (ix3 b i l)
      = Target.rowSoftmax (Target.muRow x0 b) i * ((if i = l then (1 : EReal) else 0) - Target.rowSoftmax (Target.muRow x0 b) l) := by
  rw [val_main_v35_apply, val_main_v34_apply, val_main_v28_apply, val_main_v33_apply, val_main_v31_apply,
    val_main_v30_apply, val_main_v32_apply, val_main_v29_apply,
    show idx_main_v28 (idx_main_v34 (ix3 b i l)) = ix2 b i from funext fun a => Fin.ext (by match a with | ⟨0, _⟩ => rfl | ⟨1, _⟩ => rfl),
    show idx_main_v30 (idx_main_v31 (ix3 b i l)) = ix2 i l from funext fun a => Fin.ext (by match a with | ⟨0, _⟩ => rfl | ⟨1, _⟩ => rfl),
    show idx_main_v29 (idx_main_v32 (ix3 b i l)) = ix2 b l from funext fun a => Fin.ext (by match a with | ⟨0, _⟩ => rfl | ⟨1, _⟩ => rfl),
    softmax_apply, softmax_apply, eye_apply]
  rfl

/-- The reference's `Sigma_out` is the double contraction `Target.sigmaRef`. -/
theorem ref_eq (x0 : (⟨S256x512, .f32⟩ : BufTy).Contents (Elt Ideal)) (x1 : (⟨S256x512x512, .f32⟩ : BufTy).Contents (Elt Ideal)) :
    val_main_v38 (F := Ideal) x0 x1 = Target.sigmaRef x0 x1 := by
  funext y
  obtain ⟨b, i, j, rfl⟩ : ∃ (b : Fin 256) (i j : Fin 512), y = ix3 b i j := ⟨y 0, y 1, y 2, eq_ix3 y⟩
  rw [val_main_v38_apply]
  show _ = JacobianCollapse.sandwich (Target.rowSoftmax (Target.muRow x0 b)) (Target.sigmaSlab x1 b) i j
  unfold JacobianCollapse.sandwich
  refine Finset.sum_congr rfl fun l _ => ?_
  rw [show lidx_main_v38 (ix3 b i j) l = ix3 b i l from funext fun a => Fin.ext (by match a with | ⟨0, _⟩ => rfl | ⟨1, _⟩ => rfl | ⟨2, _⟩ => rfl),
    show ridx_main_v38 (ix3 b i j) l = ix3 b l j from funext fun a => Fin.ext (by match a with | ⟨0, _⟩ => rfl | ⟨1, _⟩ => rfl | ⟨2, _⟩ => rfl),
    jac_apply, val_main_v37_apply]
  refine congrArg _ (Finset.sum_congr rfl fun k _ => ?_)
  rw [show lidx_main_v37 (ix3 b l j) k = ix3 b l k from funext fun a => Fin.ext (by match a with | ⟨0, _⟩ => rfl | ⟨1, _⟩ => rfl | ⟨2, _⟩ => rfl),
    show ridx_main_v37 (ix3 b l j) k = ix3 b k j from funext fun a => Fin.ext (by match a with | ⟨0, _⟩ => rfl | ⟨1, _⟩ => rfl | ⟨2, _⟩ => rfl),
    val_main_v36_apply,
    show idx_main_v36 (ix3 b k j) = ix3 b j k from funext fun a => Fin.ext (by match a with | ⟨0, _⟩ => rfl | ⟨1, _⟩ => rfl | ⟨2, _⟩ => rfl),
    jac_apply]
  rfl

end Cert.ReferenceIdeal.RefValue

end
-- ==== Proof.Finite.lean ====
/-
  What the precondition says of the inputs: every entry of `mu` and of `Sigma` is a real.
  The printed predicate is `all(|mu| < +∞) ∧ all(|Sigma| < +∞)`; over the extended reals `|x| = max x (-x)`
  is below `+∞` exactly when `x` is neither infinity.
-/
import proofs.«423870_j36421322670459_3_alg».proof.Pre_finite_inputs
import proofs.«423870_j36421322670459_3_alg».proof.Proof.Gen.Pre_finite_inputs
import Idealize.ShloMosaic.PureOps.Ideal.Laws
import Idealize.ShloMosaic.Lib.ReduceAll
import Idealize.ShloMosaic.Lib.Affine
import Idealize.ShloMosaic.Lib.ValueIdx
import Idealize.ShloMosaic.Lib.StableHlo.Predicate

noncomputable section

namespace Cert.Pre_finite_inputs.Finite

open Idealize.ShloMosaic Cert.Pre_finite_inputs

/-- An extended real whose absolute value compares below `+∞` is a real. -/
theorem real_of_abs_lt (x : EReal)
    (h : Ideal.cmp .olt (max x (-x)) (Ideal.ofBits .f32 0x7F800000#32) = 1#1) : ∃ r : ℝ, x = r := by
  have hb : Ideal.ofBits .f32 0x7F800000#32 = ⊤ := by simp [Ideal.ofBits, Ideal.ieee]
  rw [hb] at h
  unfold Ideal.cmp at h
  have h' : max x (-x) < ⊤ := by
    have := (StableHlo.Predicate.ofBool_eq_one_iff _).mp h
    exact of_decide_eq_true this
  induction x using EReal.rec with
  | bot => simp at h'
  | top => simp at h'
  | coe r => exact ⟨r, rfl⟩

/-- Under the printed precondition both arguments are real-valued. -/
theorem real_of_pre (a0 : FVec Ideal S256x512 .f32) (a1 : FVec Ideal S256x512x512 .f32)
    (h : fn (F := Ideal) a0 a1 = fun _ => 1#1) : (∀ i, ∃ r : ℝ, a0 i = r) ∧ (∀ i, ∃ r : ℝ, a1 i = r) := by
  have h0 := congrFun h ValueIdx.ix0
  dsimp only [fn] at h0
  obtain ⟨h3, h7⟩ := IntOp.andi_eq_one.1 h0
  haveI : Subsingleton S_.Idx := ⟨fun a b => funext fun d => d.elim0⟩
  exact ⟨fun i => real_of_abs_lt _ (Host.reduce_andi_all _ _ _ _ _ h3 i),
    fun i => real_of_abs_lt _ (Host.reduce_andi_all _ _ _ _ _ h7 i)⟩

end Cert.Pre_finite_inputs.Finite

end
-- ==== Proof.lean ====
/-
  The certificate of the softmax-Jacobian covariance propagation: `mu_out = softmax(mu, axis 0)` and, per sample,
  `Sigma_out = J Sigma Jᵀ` with `J = diag(s) - s sᵀ` the Jacobian of `s = softmax(mu_row)`.
  The reference forms `J` and takes two batched matrix products. The kernel never forms `J`: per sample it takes
  `u = Sigma s`, `v = Sigmaᵀ s`, `α = sᵀ u` and stores `s_i s_j ((Sigma_ij - (u_i - α)) - v_j)`. Over the reals
  these are one function (`JacobianCollapse.collapse_real`: distributivity, then each Kronecker delta picks one
  term of its sum); over the extended reals the same holds at real-valued `s` and `Sigma`, which the precondition
  gives: the inputs are finite, and the softmax of a finite row is a quotient of a positive real by a positive
  real. `mu_out` is the same host computation in both programs.
  The frames of the two kernel programs and the reference's run are the generated ones. The kernel's value is read off
  its frame run: the body's pieces as one function of the block index (`BlockPieces`), the stored values index by
  index (`PayloadValue`), the blocks laid over the array (`KernelSide`); the reference's from its generated run read
  one operation at a time (`ReferenceSide`).
-/
import proofs.«423870_j36421322670459_3_alg».proof.Defs
import proofs.«423870_j36421322670459_3_alg».proof.Proof.Gen.Kernel
import proofs.«423870_j36421322670459_3_alg».proof.Proof.Gen.Kernel.Skeleton
import proofs.«423870_j36421322670459_3_alg».proof.Proof.Gen.Kernel.Loops
import proofs.«423870_j36421322670459_3_alg».proof.Proof.Gen.Kernel.Launch
import proofs.«423870_j36421322670459_3_alg».proof.Proof.Gen.Kernel.Points
import proofs.«423870_j36421322670459_3_alg».proof.Proof.Gen.Kernel.Frame
import proofs.«423870_j36421322670459_3_alg».proof.Proof.Gen.KernelIdeal
import proofs.«423870_j36421322670459_3_alg».proof.Proof.Gen.KernelIdeal.Skeleton
import proofs.«423870_j36421322670459_3_alg».proof.Proof.Gen.KernelIdeal.Loops
import proofs.«423870_j36421322670459_3_alg».proof.Proof.Gen.KernelIdeal.Launch
import proofs.«423870_j36421322670459_3_alg».proof.Proof.Gen.KernelIdeal.Points
import proofs.«423870_j36421322670459_3_alg».proof.Proof.Gen.KernelIdeal.Frame
import proofs.«423870_j36421322670459_3_alg».proof.Proof.Gen.ReferenceIdeal
import proofs.«423870_j36421322670459_3_alg».proof.Proof.Gen.Pre_finite_inputs
import proofs.«423870_j36421322670459_3_alg».proof.Proof.Gen.KernelIdeal.Value
import proofs.«423870_j36421322670459_3_alg».proof.Proof.Gen.ReferenceIdeal.Run
import proofs.«423870_j36421322670459_3_alg».proof.Proof.Gen.ReferenceIdeal.Read
import proofs.«423870_j36421322670459_3_alg».proof.Proof.KernelSide
import proofs.«423870_j36421322670459_3_alg».proof.Proof.ReferenceSide
import proofs.«423870_j36421322670459_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its generated run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => ⟨(h c).2.2.1, (h c).2.2.2⟩)
    (Cert.ReferenceIdeal.Value.run (F := Ideal) m ρ)

/-- Both programs end with `mu_out` at the host's batch-axis softmax of `mu` and `Sigma_out` at the collapsed
    Jacobian product: the kernel by its run, the reference by its run, the Jacobian sandwich collapsed at the finite
    inputs the precondition admits. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.ArrayValue.muOut (m ((c.tc : Thread Cert.KernelIdeal.nD Cert.KernelIdeal.τ).loc Cert.KernelIdeal.main_arg0)),
    fun c => Cert.Target.sigmaOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · rw [(hagree c).1]
    rfl
  · obtain ⟨hmu, hsg⟩ := Cert.Pre_finite_inputs.Finite.real_of_pre _ _ (hpre c)
    rw [Cert.ReferenceIdeal.Read.val_main_v38_eq, Cert.ReferenceIdeal.RefValue.ref_eq, (hagree c).1, (hagree c).2]
    exact Cert.Target.sigmaRef_eq _ _ hmu hsg

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
